-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x224x224 : Shape := ⟨4, ![256, 3, 224, 224]⟩
abbrev S768x768 : Shape := ⟨2, ![768, 768]⟩
abbrev S_ : Shape := ⟨0, ![]⟩

class Facts : Prop where
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn {F : FTy → Type} [FloatOps F] (main_arg0 : FVec F S256x3x224x224 .f32) (main_arg1 : FVec F S768x768 .f32) : IVec S_ 1 :=
  let main_v0 : FVec F S256x3x224x224 .f32 := Host.absf main_arg0
  let main_cst : FVec F S_ .f32 := constant S_ .f32 0x7F800000#32
  let main_v1 : FVec F S256x3x224x224 .f32 := broadcastInDim S256x3x224x224 ![] bcast_S_S256x3x224x224 main_cst
  let main_v2 : IVec S256x3x224x224 1 := cmpf .olt main_v0 main_v1
  let main_c : IVec S_ 1 := constantI S_ 1 1#1
  let main_v3 : IVec S_ 1 := (fun x v => Host.reduce IntOp.andi x v reducesTo_S256x3x224x224_S_d0_1_2_3 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  main_v8
-- ==== Kernel.lean ====
abbrev S256x3x224x224 : Shape := ⟨4, ![256, 3, 224, 224]⟩
abbrev S768x768 : Shape := ⟨2, ![768, 768]⟩
abbrev S1x3x16x16 : Shape := ⟨4, ![1, 3, 16, 16]⟩
abbrev S3x16x16 : Shape := ⟨3, ![3, 16, 16]⟩
abbrev S1x768 : Shape := ⟨2, ![1, 768]⟩
abbrev S1x16 : Shape := ⟨2, ![1, 16]⟩
abbrev S16x768 : Shape := ⟨2, ![16, 768]⟩
abbrev S1 : Shape := ⟨1, ![1]⟩
abbrev S1x1 : Shape := ⟨2, ![1, 1]⟩
abbrev S1x10 : Shape := ⟨2, ![1, 10]⟩

abbrev nBuf : Space → Nat
  | .hbm => 7
  | .vmem => 3
  | .smem => 0
  | _ => 0

abbrev bufTy : (tb : Table) → Fin (tcTables nBuf tb) → BufTy
  | .hbm, ⟨0, _⟩ => ⟨S256x3x224x224, .f32⟩
  | .hbm, ⟨1, _⟩ => ⟨S768x768, .f32⟩
  | .hbm, ⟨2, _⟩ => ⟨S1x3x16x16, .f32⟩
  | .hbm, ⟨3, _⟩ => ⟨S3x16x16, .f32⟩
  | .hbm, ⟨4, _⟩ => ⟨S1x768, .f32⟩
  | .hbm, ⟨5, _⟩ => ⟨S1x16, .f32⟩
  | .hbm, ⟨6, _⟩ => ⟨S1x10, .f32⟩
  | .local _ .vmem, ⟨0, _⟩ => ⟨S1x768, .f32⟩
  | .local _ .vmem, ⟨1, _⟩ => ⟨S16x768, .f32⟩
  | .local _ .vmem, ⟨2, _⟩ => ⟨S1x16, .f32⟩
  | _, _ => ⟨S256x3x224x224, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S256x3x224x224_S1x3x16x16_0_0_0_0 : S256x3x224x224.Slices ![0, 0, 0, 0] S1x3x16x16
  shapeCasts_S1x3x16x16_S3x16x16 : S1x3x16x16.ShapeCasts S3x16x16
  shapeCasts_S3x16x16_S1x768 : S3x16x16.ShapeCasts S1x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  bitsLt_bf16_f32 : FTy.bits .bf16 < FTy.bits .f32
  inb_S16x768_S16x768_0_0 : ∀ a, (![0, 0] : Fin 2 → Nat) a + S16x768.size a ≤ S16x768.size a
  h_S16x768 : 0 < S16x768.numel
  iota_S1x16_d1_w32 : S1x16.Iotas .tc 32 [1]
  reduces_S1x16_S1 : S1x16.Reduces [1] S1
  shapeCasts_S1_S1x1 : S1.ShapeCasts S1x1
  broadcasts_S1x1_S1x16 : S1x1.Broadcasts S1x16
  inb_S1x16_S1x16_0_0 : ∀ a, (![0, 0] : Fin 2 → Nat) a + S1x16.size a ≤ S1x16.size a
  h_S1x16 : 0 < S1x16.numel
  slices_S1x16_S1x10_0_0 : S1x16.Slices ![0, 0] S1x10
  dot_S1x768_S16x768_S1x16_1_1_0_0_n_n_wf : DotDims.WF S1x768 S16x768 S1x16 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x768.size a ≤ S1x768.size a
  hwx0_0 : ∀ i : grid0.Coords, EltTy.bits .f32 = 32 ∨ (Rect.block (s := S1x768) S1x768.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S16x768.size a ≤ S768x768.size a
  hwx0_1 : ∀ i : grid0.Coords, EltTy.bits .f32 = 32 ∨ (Rect.block (s := S768x768) S16x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)

variable [Facts₀]

def dot_S1x768_S16x768_S1x16_1_1_0_0_n_n : DotDims S1x768 S16x768 S1x16 where
  lhsContracting := [1]
  rhsContracting := [1]
  lhsNonContracting := [0]
  rhsNonContracting := [0]
  lhsBatch := []
  rhsBatch := []
  wf := dot_S1x768_S16x768_S1x16_1_1_0_0_n_n_wf

abbrev win0_0 : Pipeline.Window sig grid0 :=
  Pipeline.Window.ofSpec (Memref.whole main_v2) S1x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x768.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x3x224x224 : Shape := ⟨4, ![256, 3, 224, 224]⟩
abbrev S768x768 : Shape := ⟨2, ![768, 768]⟩
abbrev S256x3x14x16x14x16 : Shape := ⟨6, ![256, 3, 14, 16, 14, 16]⟩
abbrev S256x14x14x3x16x16 : Shape := ⟨6, ![256, 14, 14, 3, 16, 16]⟩
abbrev S256x196x768 : Shape := ⟨3, ![256, 196, 768]⟩
abbrev S38535168 : Shape := ⟨1, ![38535168]⟩
abbrev S10 : Shape := ⟨1, ![10]⟩
abbrev S1x10 : Shape := ⟨2, ![1, 10]⟩
abbrev S_ : Shape := ⟨0, ![]⟩
abbrev S1 : Shape := ⟨1, ![1]⟩
abbrev S1x1 : Shape := ⟨2, ![1, 1]⟩

abbrev nBuf : Space → Nat
  | .hbm => 23
  | .vmem => 0
  | .smem => 0
  | _ => 0

abbrev bufTy : (tb : Table) → Fin (tcTables nBuf tb) → BufTy
  | .hbm, ⟨0, _⟩ => ⟨S256x3x224x224, .f32⟩
  | .hbm, ⟨1, _⟩ => ⟨S768x768, .f32⟩
  | .hbm, ⟨2, _⟩ => ⟨S256x3x14x16x14x16, .f32⟩
  | .hbm, ⟨3, _⟩ => ⟨S256x14x14x3x16x16, .f32⟩
  | .hbm, ⟨4, _⟩ => ⟨S256x196x768, .f32⟩
  | .hbm, ⟨5, _⟩ => ⟨S256x196x768, .f32⟩
  | .hbm, ⟨6, _⟩ => ⟨S38535168, .f32⟩
  | .hbm, ⟨7, _⟩ => ⟨S10, .f32⟩
  | .hbm, ⟨8, _⟩ => ⟨S1x10, .f32⟩
  | .hbm, ⟨9, _⟩ => ⟨S_, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S1x1, .f32⟩
  | .hbm, ⟨15, _⟩ => ⟨S1x10, .f32⟩
  | .hbm, ⟨16, _⟩ => ⟨S1x10, .f32⟩
  | .hbm, ⟨17, _⟩ => ⟨S1x10, .f32⟩
  | .hbm, ⟨18, _⟩ => ⟨S_, .f32⟩
  | .hbm, ⟨19, _⟩ => ⟨S1, .f32⟩
  | .hbm, ⟨20, _⟩ => ⟨S1x1, .f32⟩
  | .hbm, ⟨21, _⟩ => ⟨S1x10, .f32⟩
  | .hbm, ⟨22, _⟩ => ⟨S1x10, .f32⟩
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  shapeCasts_S256x3x224x224_S256x3x14x16x14x16 : S256x3x224x224.ShapeCasts S256x3x14x16x14x16
  transposes_S256x3x14x16x14x16_S256x14x14x3x16x16_0_2_4_1_3_5 : S256x3x14x16x14x16.Transposes [0, 2, 4, 1, 3, 5] S256x14x14x3x16x16
  shapeCasts_S256x14x14x3x16x16_S256x196x768 : S256x14x14x3x16x16.ShapeCasts S256x196x768
  shapeCasts_S256x196x768_S38535168 : S256x196x768.ShapeCasts S38535168
  slices_S38535168_S10_0 : S38535168.Slices ![0] S10
  shapeCasts_S10_S1x10 : S10.ShapeCasts S1x10
  reducesTo_S1x10_S1_d1 : S1x10.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x10_0_1 : S1x1.BroadcastsInDim S1x10 (![0, 1] : Fin 2 → Fin S1x10.rank)
  dot_S256x196x768_S768x768_S256x196x768_2_1_01_0_n_n_wf : DotDims.WF S256x196x768 S768x768 S256x196x768 [2] [1] [0, 1] [0] [] []

variable [Facts₀]

def dot_S256x196x768_S768x768_S256x196x768_2_1_01_0_n_n : DotDims S256x196x768 S768x768 S256x196x768 where
  lhsContracting := [2]
  rhsContracting := [1]
  lhsNonContracting := [0, 1]
  rhsNonContracting := [0]
  lhsBatch := []
  rhsBatch := []
  wf := dot_S256x196x768_S768x768_S256x196x768_2_1_01_0_n_n_wf

class Facts : Prop extends Facts₀ where

variable [Facts]
-- ==== Proof.Softmax.lean ====
/-
  The softmax of ten real numbers on the extended reals, and the two facts that join a masked sixteen-lane
  softmax shifted by one number to the plain ten-entry softmax shifted by another.

  For reals z₀ … z₉ and a real shift m the quotient  exp (z k − m) / ∑ j, exp (z j − m)  does not depend on m:
  exp (z − m) = exp (z − m') · exp (m' − m), the factor exp (m' − m) is a nonzero real, it leaves the sum as a
  common factor and cancels in the quotient. Over the extended reals this needs every z k and both shifts to be
  finite: with an infinite entry the differences and the products have no such law.

  A maximum of finitely many reals, folded from −∞, is a real as soon as there is one entry: this is all the
  proof needs to know of either program's shift.

  A sum over sixteen lanes of a function that vanishes from lane ten on is the sum over the first ten lanes.
-/
import Idealize.ShloMosaic.PureOps.Ideal.Laws
import Idealize.ShloMosaic.Lib.ValueIdx

noncomputable section

open scoped BigOperators

namespace Cert.Softmax

open Idealize.ShloMosaic Idealize.ShloMosaic.ValueIdx

/-! ## Sums and maxima of reals inside the extended reals -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a nonempty finite family of reals, folded from −∞, is a real. -/
theorem fold_max_real {ι : Type} (s : Finset ι) (hs : s.Nonempty) (f : ι → EReal) (hf : ∀ i, ∃ r : ℝ, f i = (r : EReal)) :
    ∃ r : ℝ, s.fold max (⊥ : EReal) f = (r : EReal) := by
  classical
  induction hs using Finset.Nonempty.cons_induction with
  | singleton a =>
    obtain ⟨r, hr⟩ := hf a
    exact ⟨r, by rw [Finset.fold_singleton, hr, max_eq_left bot_le]⟩
  | cons a s ha hs ih =>
    obtain ⟨r, hr⟩ := hf a
    obtain ⟨q, hq⟩ := ih
    exact ⟨max r q, by rw [Finset.fold_cons, hr, hq]; exact (EReal.coe_strictMono.monotone.map_max).symm⟩

/-! ## The softmax, shifted -/

/-- Entry `k` of the softmax of `z` computed with the shift `m`:  exp (z k − m) / ∑ j, exp (z j − m). -/
def sm {n : Nat} (z : Fin n → EReal) (m : EReal) (k : Fin n) : EReal :=
  Ideal.div (Ideal.exp (z k - m)) (∑ j, Ideal.exp (z j - m))

/-- On reals, with a real shift, the entry is the real quotient. -/
theorem sm_coe {n : Nat} (hn : 0 < n) (r : Fin n → ℝ) (m : ℝ) (k : Fin n) :
    sm (fun j => (r j : EReal)) (m : EReal) k = ((Real.exp (r k - m) / ∑ j, Real.exp (r j - m) : ℝ) : EReal) := by
  have hpos : 0 < ∑ j, Real.exp (r j - m) :=
    Finset.sum_pos (fun j _ => Real.exp_pos _) ⟨⟨0, hn⟩, Finset.mem_univ _⟩
  unfold sm
  simp only [← EReal.coe_sub, Ideal.exp_coe, ← coe_sum]
  rw [Ideal.div_coe hpos.ne', ← EReal.coe_mul, mul_one_div]

/-- The shift does not matter: any two real shifts give the same entry. -/
theorem sm_shift {n : Nat} (hn : 0 < n) (r : Fin n → ℝ) (m m' : ℝ) (k : Fin n) :
    sm (fun j => (r j : EReal)) (m : EReal) k = sm (fun j => (r j : EReal)) (m' : EReal) k := by
  rw [sm_coe hn, sm_coe hn]
  congr 1
  have hc : ∀ x : ℝ, Real.exp (x - m) = Real.exp (x - m') * Real.exp (m' - m) := fun x => by
    rw [← Real.exp_add]; congr 1; ring
  have hne : Real.exp (m' - m) ≠ 0 := (Real.exp_pos _).ne'
  have hs : ∑ j, Real.exp (r j - m) = (∑ j, Real.exp (r j - m')) * Real.exp (m' - m) := by
    rw [Finset.sum_mul]; exact Finset.sum_congr rfl fun j _ => hc _
  rw [hc (r k), hs]
  exact mul_div_mul_right _ _ hne

/-- The same for entries known to be real only through an equation. -/
theorem sm_shift_of_real {n : Nat} (hn : 0 < n) (z : Fin n → EReal) (hz : ∀ j, ∃ r : ℝ, z j = (r : EReal))
    (a b : EReal) (ha : ∃ r : ℝ, a = (r : EReal)) (hb : ∃ r : ℝ, b = (r : EReal)) (k : Fin n) :
    sm z a k = sm z b k := by
  choose r hr using hz
  obtain ⟨m, rfl⟩ := ha
  obtain ⟨m', rfl⟩ := hb
  obtain rfl : z = fun j => (r j : EReal) := funext hr
  exact sm_shift hn r m m' k

/-! ## Sixteen lanes of which ten count -/

/-- A sum over sixteen lanes of a function that is `g` on the first ten and zero on the rest is the sum of `g`. -/
theorem sum_lanes {M : Type} [AddCommMonoid M] (f : Fin 16 → M) (g : Fin 10 → M)
    (hlo : ∀ k : Fin 10, f ⟨k.val, by omega⟩ = g k) (hhi : ∀ l : Fin 16, 10 ≤ l.val → f l = 0) :
    ∑ l, f l = ∑ k, g k := by
  have e : ∑ k : Fin 10, g k = ∑ l ∈ Finset.univ.map (Fin.castLEEmb (by omega : 10 ≤ 16)), f l := by
    rw [Finset.sum_map]; exact Finset.sum_congr rfl fun k _ => (hlo k).symm
  rw [e]
  refine (Finset.sum_subset (Finset.subset_univ _) fun l _ hl => hhi l ?_).symm
  by_contra h
  exact hl (Finset.mem_map.mpr ⟨⟨l.val, by omega⟩, Finset.mem_univ _, Fin.ext rfl⟩)

/-! ## What both programs compute -/

/-- −∞'s pattern. -/
theorem ofBits_neg_inf : Ideal.ofBits .f32 0xFF800000#32 = (⊥ : EReal) := by
  simp [Ideal.ofBits, Ideal.ieee]

/-- Where number `d` of patch (0, 0) of image 0 sits in the images: channel d / 256, row (d / 16) mod 16, column d mod 16. -/
abbrev pix (d : Fin 768) : (⟨4, ![256, 3, 224, 224]⟩ : Shape).Idx :=
  ix4 ⟨0, by omega⟩ ⟨d.val / 256, by omega⟩ ⟨d.val / 16 % 16, by omega⟩ ⟨d.val % 16, by omega⟩

/-- Number `k` of the ten: patch (0, 0) of image 0 against row `k` of the matrix. -/
def logit (X : (⟨4, ![256, 3, 224, 224]⟩ : Shape).Idx → EReal) (W : (⟨2, ![768, 768]⟩ : Shape).Idx → EReal) (k : Fin 10) : EReal :=
  ∑ d : Fin 768, X (pix d) * W (ix2 (⟨k.val, by omega⟩ : Fin 768) d)

/-- The result: the softmax of the ten numbers (written with the shift 0; any real shift gives the same). -/
def G (X : (⟨4, ![256, 3, 224, 224]⟩ : Shape).Idx → EReal) (W : (⟨2, ![768, 768]⟩ : Shape).Idx → EReal) :
    (⟨2, ![1, 10]⟩ : Shape).Idx → EReal :=
  fun i => sm (logit X W) 0 (i 1)

/-- With real arguments each of the ten numbers is a real. -/
theorem logit_real (X : (⟨4, ![256, 3, 224, 224]⟩ : Shape).Idx → EReal) (W : (⟨2, ![768, 768]⟩ : Shape).Idx → EReal)
    (hX : ∀ i, ∃ r : ℝ, X i = (r : EReal)) (hW : ∀ i, ∃ r : ℝ, W i = (r : EReal)) (k : Fin 10) :
    ∃ r : ℝ, logit X W k = (r : EReal) := by
  choose a ha using hX
  choose b hb using hW
  refine ⟨∑ d : Fin 768, a (pix d) * b (ix2 (⟨k.val, by omega⟩ : Fin 768) d), ?_⟩
  unfold logit
  rw [coe_sum]
  exact Finset.sum_congr rfl fun d _ => by rw [ha, hb, EReal.coe_mul]

/-- With real arguments the softmax of the ten numbers under any real shift is the result. -/
theorem sm_eq_G (X : (⟨4, ![256, 3, 224, 224]⟩ : Shape).Idx → EReal) (W : (⟨2, ![768, 768]⟩ : Shape).Idx → EReal)
    (hX : ∀ i, ∃ r : ℝ, X i = (r : EReal)) (hW : ∀ i, ∃ r : ℝ, W i = (r : EReal))
    (a : EReal) (ha : ∃ r : ℝ, a = (r : EReal)) (k : Fin 10) :
    sm (logit X W) a k = G X W (ix2 (0 : Fin 1) k) :=
  sm_shift_of_real (by omega) _ (logit_real X W hX hW) a 0 ha ⟨0, EReal.coe_zero.symm⟩ k

end Cert.Softmax

end
-- ==== Proof.Finite.lean ====
/-
  From the precondition to real entries: every entry of both argument arrays is a real number.

  The precondition is the conjunction of two "all" reductions, one per argument, of the element test  |x| < +∞.
  On the extended reals |x| is max x (−x), and the pattern 0x7F800000 denotes +∞, so the test at an entry says the
  entry is neither +∞ nor −∞: it is the coercion of a real.
-/
import proofs.«419061_j15470472200194_3_alg».proof.Pre_finite_inputs
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx Cert.Pre_finite_inputs

instance : Subsingleton S_.Idx := ⟨fun a b => funext fun d => d.elim0⟩

/-- The pattern of +∞. -/
theorem ofBits_inf : Ideal.ofBits .f32 0x7F800000#32 = (⊤ : EReal) := by
  simp [Ideal.ofBits, Ideal.ieee]

/-- An extended real whose absolute value is below +∞ is a real. -/
theorem real_of_abs_lt_top (x : EReal) (h : max x (-x) < (⊤ : EReal)) : ∃ r : ℝ, x = (r : EReal) := by
  induction x using EReal.rec with
  | bot => simp at h
  | top => simp at h
  | coe r => exact ⟨r, rfl⟩

/-- The element test of the precondition, at one entry. -/
theorem real_of_test (x : Ideal .f32)
    (h : FloatOps.cmpf .olt (FloatOps.hostAbsf x) (FloatOps.ofBits .f32 0x7F800000#32) = 1#1) : ∃ r : ℝ, x = (r : EReal) := by
  rw [Ideal.cmpf_def, Ideal.hostAbsf_def, Ideal.absf_def, Ideal.ofBits_def, ofBits_inf] at h
  refine real_of_abs_lt_top x ?_
  by_contra hn
  simp [Ideal.cmp, hn] at h

variable [Facts]

/-- Under the precondition every entry of both arguments is a real. -/
theorem entries_real (X : FVec Ideal S256x3x224x224 .f32) (W : FVec Ideal S768x768 .f32)
    (h : fn (F := Ideal) X W = fun _ => 1#1) :
    (∀ i, ∃ r : ℝ, X i = (r : EReal)) ∧ (∀ i, ∃ r : ℝ, W i = (r : EReal)) := by
  have h0 := congrFun h ix0
  dsimp only [fn] at h0
  obtain ⟨hX, hW⟩ := IntOp.andi_eq_one.1 h0
  exact ⟨fun i => real_of_test (X i) (Host.reduce_andi_all _ _ _ _ _ hX i),
    fun i => real_of_test (W i) (Host.reduce_andi_all _ _ _ _ _ hW i)⟩

end Cert.Finite

end
-- ==== Proof.RefValue.lean ====
/-
  The reference, read at an entry of its result.

  The reference cuts every image into 14 × 14 patches of 3 × 16 × 16 numbers, multiplies all patches by the
  768 × 768 matrix, flattens the product and keeps its first ten numbers. Those are the products of patch (0, 0) of
  image 0 with the first ten rows of the matrix: entry k is  ∑ d, image₀[c, ph, pw] · W[k, d]  with
  d = 256 c + 16 ph + pw. The rest of the program is the softmax of these ten numbers, shifted by their maximum
  (taken once more against −∞, which changes nothing).
-/
import proofs.«419061_j15470472200194_3_alg».proof.Proof.Gen.ReferenceIdeal.Read
import proofs.«419061_j15470472200194_3_alg».proof.Proof.Softmax
import Idealize.ShloMosaic.Lib.ValueIdxRank6

noncomputable section

namespace Cert.ReferenceIdeal.RefValue

open Cert.ReferenceIdeal Cert.ReferenceIdeal.Gen Cert.ReferenceIdeal.Read
open Idealize.ShloMosaic Idealize.ShloMosaic.ValueIdx Cert.Softmax

/-- The patch tensor at (image 0, patch 0, d) is the image entry `pix d`: the two reshapes keep row-major positions and
    the transpose in between moves the two patch-grid axes (both at 0 here) in front of the channel. -/
theorem patch_apply (x0 : (⟨S256x3x224x224, .f32⟩ : BufTy).Contents (Elt Ideal)) (d : Fin 768) :
    val_main_v2 (F := Ideal) x0 (ix3 ⟨0, by omega⟩ ⟨0, by omega⟩ d) = x0 (pix d) := by
  have hd : d.val < 768 := d.isLt
  unfold val_main_v2
  refine (shapeCast_apply (val_main_v1 (F := Ideal) x0) shapeCasts_S256x14x14x3x16x16_S256x196x768 _
    (ix6 ⟨0, by omega⟩ ⟨0, by omega⟩ ⟨0, by omega⟩ ⟨d.val / 256, by omega⟩ ⟨d.val / 16 % 16, by omega⟩ ⟨d.val % 16, by omega⟩) ?_).trans ?_
  · rw [Shape.rowMajor_val_six, Shape.rowMajor_val_three]
    show (((((0 * 14 + 0) * 14 + 0) * 3 + d.val / 256) * 16 + d.val / 16 % 16) * 16 + d.val % 16) = (0 * 196 + 0) * 768 + d.val
    omega
  rw [val_main_v1_apply]
  unfold val_main_v0
  refine shapeCast_apply x0 shapeCasts_S256x3x224x224_S256x3x14x16x14x16 _ (pix d) ?_
  rw [Shape.rowMajor_val_four, Shape.rowMajor_val_six]
  show ((0 * 3 + d.val / 256) * 224 + d.val / 16 % 16) * 224 + d.val % 16
    = ((((0 * 3 + d.val / 256) * 14 + 0) * 16 + d.val / 16 % 16) * 14 + 0) * 16 + d.val % 16
  omega

/-- Entry `k` of the ten kept numbers: patch (0, 0) of image 0 against row `k` of the matrix. -/
theorem logit_apply (x0 : (⟨S256x3x224x224, .f32⟩ : BufTy).Contents (Elt Ideal)) (x1 : (⟨S768x768, .f32⟩ : BufTy).Contents (Elt Ideal))
    (k : Fin 10) :
    val_main_v6 (F := Ideal) x0 x1 (ix2 (0 : Fin 1) k) = logit x0 x1 k := by
  unfold logit
  have hk : k.val < 10 := k.isLt
  rw [val_main_v6_apply, val_main_v5_apply, val_main_v4_apply, val_main_v3_apply]
  refine Finset.sum_congr rfl fun d _ => ?_
  have el : lidx_main_v3 (idx_main_v4 (idx_main_v5 (idx_main_v6 (ix2 (0 : Fin 1) k)))) d = ix3 ⟨0, by omega⟩ ⟨0, by omega⟩ d :=
    funext fun a => Fin.ext (by
      match a with
      | ⟨0, _⟩ => show (0 * 10 + k.val) / 150528 = 0; omega
      | ⟨1, _⟩ => show (0 * 10 + k.val) / 768 % 196 = 0; omega
      | ⟨2, _⟩ => rfl)
  have er : ridx_main_v3 (idx_main_v4 (idx_main_v5 (idx_main_v6 (ix2 (0 : Fin 1) k)))) d = ix2 (⟨k.val, by omega⟩ : Fin 768) d :=
    funext fun a => Fin.ext (by
      match a with
      | ⟨0, _⟩ => show (0 * 10 + k.val) % 768 = k.val; omega
      | ⟨1, _⟩ => rfl)
  rw [el, er, patch_apply]

/-! ## The softmax of the ten numbers -/

/-- The ten kept numbers. -/
def z (x0 : (⟨S256x3x224x224, .f32⟩ : BufTy).Contents (Elt Ideal)) (x1 : (⟨S768x768, .f32⟩ : BufTy).Contents (Elt Ideal)) (k : Fin 10) : EReal :=
  val_main_v6 (F := Ideal) x0 x1 (ix2 (0 : Fin 1) k)

/-- The reference's shift: the maximum of the ten numbers from −∞, once more against −∞. -/
def shift (x0 : (⟨S256x3x224x224, .f32⟩ : BufTy).Contents (Elt Ideal)) (x1 : (⟨S768x768, .f32⟩ : BufTy).Contents (Elt Ideal)) : EReal :=
  max (Ideal.ofBits .f32 0xFF800000#32) (Finset.univ.fold max (Ideal.ofBits .f32 0xFF800000#32) (z x0 x1))

/-- Every entry of the broadcast maximum is the shift. -/
theorem max_apply (x0 : (⟨S256x3x224x224, .f32⟩ : BufTy).Contents (Elt Ideal)) (x1 : (⟨S768x768, .f32⟩ : BufTy).Contents (Elt Ideal))
    (i : S1x10.Idx) : val_main_v11 (F := Ideal) x0 x1 i = shift x0 x1 := by
  rw [val_main_v11_apply, val_main_v10_apply, val_main_v9_apply, val_main_v8_apply, val_main_cst_0_apply]
  unfold val_main_v7
  rw [Host.reduce_eq_fold_single FloatOps.maximumf _ _ reducesTo_S1x10_S1_d1 (by decide) h_S_]
  unfold shift
  refine congrArg (max _) ?_
  refine Finset.fold_congr fun k _ => ?_
  show val_main_v6 (F := Ideal) x0 x1 _ = val_main_v6 (F := Ideal) x0 x1 _
  refine congrArg _ (funext fun a => Fin.ext ?_)
  match a with
  | ⟨0, _⟩ => rfl
  | ⟨1, _⟩ => rfl

/-- Every entry of the broadcast sum is the sum of the ten exponentials. -/
theorem sum_apply (x0 : (⟨S256x3x224x224, .f32⟩ : BufTy).Contents (Elt Ideal)) (x1 : (⟨S768x768, .f32⟩ : BufTy).Contents (Elt Ideal))
    (i : S1x10.Idx) : val_main_v16 (F := Ideal) x0 x1 i = ∑ j : Fin 10, Ideal.exp (z x0 x1 j - shift x0 x1) := by
  rw [val_main_v16_apply, val_main_v15_apply, val_main_v14_apply, val_main_cst_1_apply, Ideal.ofBits_def,
    Ideal.ofBits_zero_f32, zero_add]
  refine Finset.sum_congr rfl fun k _ => ?_
  have e : idx_main_v14 (idx_main_v15 (idx_main_v16 i)) k = ix2 (0 : Fin 1) k :=
    funext fun a => Fin.ext (by match a with | ⟨0, _⟩ => rfl | ⟨1, _⟩ => rfl)
  rw [e, val_main_v13_apply, val_main_v12_apply, max_apply]
  rfl

/-- The reference's result at entry `k`: the softmax of the ten numbers with the reference's shift. -/
theorem result_apply (x0 : (⟨S256x3x224x224, .f32⟩ : BufTy).Contents (Elt Ideal)) (x1 : (⟨S768x768, .f32⟩ : BufTy).Contents (Elt Ideal))
    (k : Fin 10) : val_main_v17 (F := Ideal) x0 x1 (ix2 (0 : Fin 1) k) = sm (z x0 x1) (shift x0 x1) k := by
  rw [val_main_v17_apply, val_main_v13_apply, val_main_v12_apply, max_apply, sum_apply]
  rfl

/-- With real arguments the reference's result is the softmax of the ten numbers: its shift, a maximum of reals,
    is a real. -/
theorem result_eq (x0 : (⟨S256x3x224x224, .f32⟩ : BufTy).Contents (Elt Ideal)) (x1 : (⟨S768x768, .f32⟩ : BufTy).Contents (Elt Ideal))
    (h0 : ∀ i, ∃ r : ℝ, x0 i = (r : EReal)) (h1 : ∀ i, ∃ r : ℝ, x1 i = (r : EReal)) :
    val_main_v17 (F := Ideal) x0 x1 = G x0 x1 := by
  funext i
  obtain ⟨a, k, rfl⟩ : ∃ (a : Fin 1) (k : Fin 10), i = ix2 a k := ⟨i 0, i 1, eq_ix2 i⟩
  obtain rfl : a = 0 := Subsingleton.elim _ _
  have hz : z x0 x1 = logit x0 x1 := funext fun j => logit_apply x0 x1 j
  rw [result_apply, hz]
  refine sm_eq_G x0 x1 h0 h1 _ ?_ k
  unfold shift
  rw [hz, ofBits_neg_inf, max_eq_right bot_le]
  exact fold_max_real _ Finset.univ_nonempty _ (logit_real x0 x1 h0 h1)

end Cert.ReferenceIdeal.RefValue

end
-- ==== Proof.KernelPayload.lean ====
/-
  The kernel body's arithmetic, read at a lane.

  The body multiplies the 1 × 768 patch by the transposed 16 × 768 block of matrix rows: lane l of the product is
  ∑ d, patch[d] · rows[l, d]. Lanes ten to fifteen are then replaced by −10⁹, the row maximum is taken over all
  sixteen lanes, the exponentials of the differences are formed, those of lanes ten to fifteen are replaced by
  zero, and every lane is divided by the sum over the sixteen lanes. On a lane below ten the result is therefore
  the softmax of the first ten lanes computed with the sixteen-lane maximum as its shift: the six zeroed lanes add
  nothing to the sum.
-/
import proofs.«419061_j15470472200194_3_alg».proof.Proof.Gen.KernelIdeal.Skeleton
import proofs.«419061_j15470472200194_3_alg».proof.Proof.Softmax
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx Cert.Softmax

variable (x0 : Vec Ideal S1x768 .f32) (x1 : Vec Ideal S16x768 .f32)

/-! ## The body's values, named -/

/-- The product: patch against the sixteen matrix rows. -/
def logits : FVec Ideal S1x16 .f32 :=
  matmul dot_S1x768_S16x768_S1x16_1_1_0_0_n_n none
    (truncf .bf16 (shapeCast S1x768 x0 shapeCasts_S1x768_S1x768) bitsLt_bf16_f32) (truncf .bf16 x1 bitsLt_bf16_f32)
    (constant S1x16 .f32 0x00000000#32)

/-- The lane test: lane number below ten. -/
def keep : IVec S1x16 1 := cmpi .slt (iota .tc S1x16 32 [1] iota_S1x16_d1_w32) (broadcast S1x16 10#32)

/-- The product with lanes ten to fifteen replaced by −10⁹. -/
def masked : FVec Ideal S1x16 .f32 :=
  select keep (logits x0 x1) (broadcast S1x16 (Scalar.ofBits .f32 0xCE6E6B28#32))

/-- The maximum over the sixteen lanes. -/
def rowmax : FVec Ideal S1 .f32 :=
  multiReduction .maximumf [1] S1 (masked x0 x1) 0xFF800000#32 reduces_S1x16_S1 (.inl rfl) rfl

/-- The exponentials of the differences, zero on lanes ten to fifteen. -/
def expo : FVec Ideal S1x16 .f32 :=
  select keep (exp (subf (masked x0 x1) (broadcastTo S1x16 (shapeCast S1x1 (rowmax x0 x1) shapeCasts_S1_S1x1) broadcasts_S1x1_S1x16)))
    (broadcast S1x16 (Scalar.ofBits .f32 0x00000000#32))

/-- Their sum over the sixteen lanes. -/
def rowsum : FVec Ideal S1 .f32 :=
  multiReduction .add [1] S1 (expo x0 x1) 0x00000000#32 reduces_S1x16_S1 (.inl rfl) rfl

/-- The stored value is the quotient of the two. -/
theorem pay_eq : k0_pay1 (F := Ideal) x0 x1
    = divf (expo x0 x1) (broadcastTo S1x16 (shapeCast S1x1 (rowsum x0 x1) shapeCasts_S1_S1x1) broadcasts_S1x1_S1x16) := rfl

/-! ## Each value at a lane -/

/-- A one-entry vector broadcast along the lanes reads that entry everywhere. -/
theorem col_apply (v : FVec Ideal S1 .f32) (j : S1x16.Idx) :
    broadcastTo S1x16 (shapeCast S1x1 v shapeCasts_S1_S1x1) broadcasts_S1x1_S1x16 j = v (ix1 (0 : Fin 1)) := by
  refine (broadcastTo_apply _ broadcasts_S1x1_S1x16 j (ix2 (0 : Fin 1) (0 : Fin 1)) (fun a => ?_)).trans ?_
  · match a with
    | ⟨0, _⟩ => show 0 = if (1 : Nat) = 1 then 0 else _; rw [if_pos rfl]
    | ⟨1, _⟩ => show 0 = if (1 : Nat) = 1 then 0 else _; rw [if_pos rfl]
  · exact shapeCast_apply v shapeCasts_S1_S1x1 _ (ix1 (0 : Fin 1))
      (by rw [Shape.rowMajor_val_one, Shape.rowMajor_val_two]; rfl)

/-- The lane test at lane `l`. -/
theorem keep_apply (l : Fin 16) : keep (ix2 (0 : Fin 1) l) = if l.val < 10 then 1#1 else 0#1 := by
  unfold keep
  show IntOp.cmpi .slt (iota .tc S1x16 32 [1] iota_S1x16_d1_w32 (ix2 (0 : Fin 1) l)) 10#32 = _
  rw [iota_single_apply]
  show IntOp.cmpi .slt (BitVec.ofNat 32 l.val) 10#32 = _
  revert l; decide

theorem lhs_0 (i : S1x16.Idx) (q : dot_S1x768_S16x768_S1x16_1_1_0_0_n_n.contr.Idx) :
    (dot_S1x768_S16x768_S1x16_1_1_0_0_n_n.lhsIdx i q 0).val = (i 0).val := by
  unfold DotDims.lhsIdx
  rw [dif_neg (show ¬(0 : Fin S1x768.rank) ∈ dot_S1x768_S16x768_S1x16_1_1_0_0_n_n.lhsBatch by decide), dif_pos (show (0 : Fin S1x768.rank) ∈ dot_S1x768_S16x768_S1x16_1_1_0_0_n_n.lhsNonContracting by decide)]
  rfl
theorem lhs_1 (i : S1x16.Idx) (q : dot_S1x768_S16x768_S1x16_1_1_0_0_n_n.contr.Idx) :
    (dot_S1x768_S16x768_S1x16_1_1_0_0_n_n.lhsIdx i q 1).val = (q ⟨0, by decide⟩).val :=
  dot_S1x768_S16x768_S1x16_1_1_0_0_n_n.lhsIdx_val_of_single rfl i q
theorem rhs_0 (i : S1x16.Idx) (q : dot_S1x768_S16x768_S1x16_1_1_0_0_n_n.contr.Idx) :
    (dot_S1x768_S16x768_S1x16_1_1_0_0_n_n.rhsIdx i q 0).val = (i 1).val := by
  unfold DotDims.rhsIdx
  rw [dif_neg (show ¬(0 : Fin S16x768.rank) ∈ dot_S1x768_S16x768_S1x16_1_1_0_0_n_n.rhsBatch by decide), dif_pos (show (0 : Fin S16x768.rank) ∈ dot_S1x768_S16x768_S1x16_1_1_0_0_n_n.rhsNonContracting by decide)]
  rfl
theorem rhs_1 (i : S1x16.Idx) (q : dot_S1x768_S16x768_S1x16_1_1_0_0_n_n.contr.Idx) :
    (dot_S1x768_S16x768_S1x16_1_1_0_0_n_n.rhsIdx i q 1).val = (q ⟨0, by decide⟩).val :=
  dot_S1x768_S16x768_S1x16_1_1_0_0_n_n.rhsIdx_val_of_single rfl i q

/-- Lane `l` of the product: the patch against row `l` of the block, both operands contracted over their second axis. -/
theorem logits_apply (l : Fin 16) :
    logits x0 x1 (ix2 (0 : Fin 1) l) = ∑ d : Fin 768, x0 (ix2 (0 : Fin 1) d) * x1 (ix2 l d) := by
  unfold logits
  simp only [matmul]
  rw [Ideal.matmul_constant_zero_apply, ← Equiv.sum_comp (contrEquiv1 dot_S1x768_S16x768_S1x16_1_1_0_0_n_n 768 rfl rfl).symm]
  refine Finset.sum_congr rfl fun d _ => ?_
  have hk := contrEquiv1_symm_val dot_S1x768_S16x768_S1x16_1_1_0_0_n_n 768 rfl rfl d
  have el : dot_S1x768_S16x768_S1x16_1_1_0_0_n_n.lhsIdx (ix2 (0 : Fin 1) l) ((contrEquiv1 dot_S1x768_S16x768_S1x16_1_1_0_0_n_n 768 rfl rfl).symm d) = ix2 (0 : Fin 1) d := funext fun a => Fin.ext (by
    match a with
    | ⟨0, _⟩ => exact lhs_0 _ _
    | ⟨1, _⟩ => exact (lhs_1 _ _).trans hk)
  have er : dot_S1x768_S16x768_S1x16_1_1_0_0_n_n.rhsIdx (ix2 (0 : Fin 1) l) ((contrEquiv1 dot_S1x768_S16x768_S1x16_1_1_0_0_n_n 768 rfl rfl).symm d) = ix2 l d := funext fun a => Fin.ext (by
    match a with
    | ⟨0, _⟩ => exact rhs_0 _ _
    | ⟨1, _⟩ => exact (rhs_1 _ _).trans hk)
  rw [el, er, shapeCast_self]
  rfl

/-- The masked product at lane `l`. -/
theorem masked_apply (l : Fin 16) :
    masked x0 x1 (ix2 (0 : Fin 1) l)
      = if l.val < 10 then logits x0 x1 (ix2 (0 : Fin 1) l) else Ideal.ofBits .f32 0xCE6E6B28#32 := by
  unfold masked
  rw [select_apply, keep_apply]
  by_cases h : l.val < 10
  · rw [if_pos h, if_pos h, select_one]
  · rw [if_neg h, if_neg h, select_zero]; rfl

/-- The row maximum: the fold of max from −∞ over the sixteen lanes of the masked product. -/
theorem rowmax_apply :
    rowmax x0 x1 (ix1 (0 : Fin 1))
      = (Finset.univ : Finset (Fin 16)).fold max (Ideal.ofBits .f32 0xFF800000#32) (fun l => masked x0 x1 (ix2 (0 : Fin 1) l)) := by
  unfold rowmax
  refine (Ideal.multiReduction_maximumf_single (masked x0 x1) 0xFF800000#32 reduces_S1x16_S1 (.inl rfl) rfl (ix1 (0 : Fin 1))).trans ?_
  refine Finset.fold_congr fun l _ => ?_
  show masked x0 x1 _ = masked x0 x1 _
  exact congrArg _ (funext fun a => Fin.ext (by match a with | ⟨0, _⟩ => rfl | ⟨1, _⟩ => rfl))

/-- The exponentials at lane `l`. -/
theorem expo_apply (l : Fin 16) :
    expo x0 x1 (ix2 (0 : Fin 1) l)
      = if l.val < 10 then Ideal.exp (masked x0 x1 (ix2 (0 : Fin 1) l) - rowmax x0 x1 (ix1 (0 : Fin 1))) else 0 := by
  unfold expo
  rw [select_apply, keep_apply]
  by_cases h : l.val < 10
  · rw [if_pos h, if_pos h, select_one]
    show Ideal.exp (masked x0 x1 _ - broadcastTo S1x16 (shapeCast S1x1 (rowmax x0 x1) shapeCasts_S1_S1x1) broadcasts_S1x1_S1x16 _) = _
    rw [col_apply]
  · rw [if_neg h, if_neg h, select_zero]; exact Ideal.ofBits_zero_f32

/-- The row sum: the sum of the exponentials over the sixteen lanes. -/
theorem rowsum_apply : rowsum x0 x1 (ix1 (0 : Fin 1)) = ∑ l : Fin 16, expo x0 x1 (ix2 (0 : Fin 1) l) := by
  unfold rowsum
  refine (Ideal.multiReduction_add_single (expo x0 x1) 0x00000000#32 reduces_S1x16_S1 (.inl rfl) rfl (ix1 (0 : Fin 1))).trans ?_
  refine Finset.sum_congr rfl fun l _ => ?_
  exact congrArg _ (funext fun a => Fin.ext (by match a with | ⟨0, _⟩ => rfl | ⟨1, _⟩ => rfl))

/-! ## The stored value on the lanes that count -/

/-- The ten lanes that count: patch against rows 0 … 9. -/
def lane (k : Fin 10) : EReal := ∑ d : Fin 768, x0 (ix2 (0 : Fin 1) d) * x1 (ix2 (⟨k.val, by omega⟩ : Fin 16) d)

/-- On a lane below ten the body stores the softmax of the ten lanes, shifted by the sixteen-lane maximum. -/
theorem pay_apply (k : Fin 10) :
    k0_pay1 (F := Ideal) x0 x1 (ix2 (0 : Fin 1) (⟨k.val, by omega⟩ : Fin 16)) = sm (lane x0 x1) (rowmax x0 x1 (ix1 (0 : Fin 1))) k := by
  rw [pay_eq, divf_apply, col_apply, expo_apply, if_pos k.isLt, masked_apply, if_pos k.isLt, logits_apply, rowsum_apply]
  unfold sm
  congr 1
  refine sum_lanes _ _ (fun j => ?_) (fun l hl => ?_)
  · rw [expo_apply, if_pos j.isLt, masked_apply, if_pos j.isLt, logits_apply]; rfl
  · rw [expo_apply, if_neg (by omega)]

/-! ## The shift is a real -/

/-- −∞'s pattern. -/
theorem ofBits_neg_inf : Ideal.ofBits .f32 0xFF800000#32 = (⊥ : EReal) := by
  simp [Ideal.ofBits, Ideal.ieee]

/-- The fill value −10⁹ is a real number. -/
theorem fill_real : ∃ r : ℝ, Ideal.ofBits .f32 0xCE6E6B28#32 = (r : EReal) := by
  unfold Ideal.ofBits Ideal.ieee
  dsimp only
  rw [if_neg (by decide), if_neg (by decide)]
  exact ⟨_, rfl⟩

/-- With real operands every lane of the product is a real. -/
theorem logits_real (h0 : ∀ i, ∃ r : ℝ, x0 i = (r : EReal)) (h1 : ∀ i, ∃ r : ℝ, x1 i = (r : EReal)) (l : Fin 16) :
    ∃ r : ℝ, logits x0 x1 (ix2 (0 : Fin 1) l) = (r : EReal) := by
  choose a ha using h0
  choose b hb using h1
  refine ⟨∑ d : Fin 768, a (ix2 (0 : Fin 1) d) * b (ix2 l d), ?_⟩
  rw [logits_apply, coe_sum]
  exact Finset.sum_congr rfl fun d _ => by rw [ha, hb, EReal.coe_mul]

/-- With real operands the sixteen-lane maximum is a real. -/
theorem rowmax_real (h0 : ∀ i, ∃ r : ℝ, x0 i = (r : EReal)) (h1 : ∀ i, ∃ r : ℝ, x1 i = (r : EReal)) :
    ∃ r : ℝ, rowmax x0 x1 (ix1 (0 : Fin 1)) = (r : EReal) := by
  rw [rowmax_apply, ofBits_neg_inf]
  refine fold_max_real _ Finset.univ_nonempty _ fun l => ?_
  rw [masked_apply]
  split_ifs
  · exact logits_real x0 x1 h0 h1 l
  · exact fill_real

/-- With real operands each of the ten lanes is a real. -/
theorem lane_real (h0 : ∀ i, ∃ r : ℝ, x0 i = (r : EReal)) (h1 : ∀ i, ∃ r : ℝ, x1 i = (r : EReal)) (k : Fin 10) :
    ∃ r : ℝ, lane x0 x1 k = (r : EReal) := by
  obtain ⟨r, hr⟩ := logits_real x0 x1 h0 h1 ⟨k.val, by omega⟩
  exact ⟨r, by rw [← hr, logits_apply]; rfl⟩

end Cert.KernelIdeal.Payload

end
-- ==== Proof.KernelValue.lean ====
/-
  The kernel program's result array.

  The launch has one grid point. Its first operand is the patch (the 1 × 768 array the lines before the launch cut out
  of image 0 and flattened), whole; its second is block (0, 0) of the matrix cut in 16 × 768 blocks, that is rows
  0 … 15; its result block is the whole 1 × 16 result. So after the launch the 1 × 16 array holds what the body stored,
  computed from the patch and those sixteen rows, and the line after the launch keeps its first ten entries.
-/
import proofs.«419061_j15470472200194_3_alg».proof.Proof.Gen.KernelIdeal.Frame
import proofs.«419061_j15470472200194_3_alg».proof.Proof.KernelPayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Payload
open Idealize.ShloMosaic.ValueIdx Cert.Softmax

variable (m : (ℓ : Loc nD τ sig) → Buf (Elt Ideal) ℓ) (ρ : Dev nD → PrngReg)

theorem hz : (![0, 0] : Fin 2 → Nat) = fun _ => 0 := funext fun a => by fin_cases a <;> rfl

/-- What the body leaves in the result's staging buffer is the stored value of the two loaded blocks. -/
theorem out_eq (x0 : Vec Ideal S1x768 .f32) (x1 : Vec Ideal S16x768 .f32) : out0_2 (F := Ideal) x0 x1 = k0_pay1 x0 x1 := by
  unfold out0_2
  rw [View.canon_unit_zero hz]
  simp only [View.ld_unit_zero (S := S1x768) hz, View.ld_unit_zero (S := S16x768) hz]

/-- The patch block and the block of matrix rows at the one grid point. -/
abbrev patch (c : Dev nD) : Vec Ideal S1x768 .f32 := iblk m c 0 t0_0
abbrev rows (c : Dev nD) : Vec Ideal S16x768 .f32 := iblk m c 1 t0_0

/-- The 1 × 16 array after the launch. -/
abbrev result (c : Dev nD) : Buf (Elt Ideal) ((c : Thread nD τ).loc main_v3) := k0_pay1 (patch m c) (rows m c)

/-- The one write-back writes `result`: the result's block is the whole array. -/
theorem flushed_eq (c : Dev nD) (t : Fin cfg0.N) (hf : (cfg0.win 2).flush t = true) :
    (dats m 0 c).flushed 2 t = ((cfg0.win 2).blk t).view.read (Elt Ideal) (result m c) := by
  obtain rfl : t = t0_0 := fin_N0 t
  show (cfg0.win 2).cut (grid0.coords t0_0) ((dats m 0 c).after 2 t0_0) = _
  rw [after0_2, out_eq]
  have hz' : (fun a => win0_2.index t0_0 a * main_v3.ty.shape.size a) = fun _ => 0 := funext fun a => by fin_cases a <;> decide
  exact (Memref.read_access_unit_zero (Elt Ideal) main_v3 hz' (fun a => by rw [congrFun hz' a]; simp) (result m c)).symm

/-- So the 1 × 16 array ends holding `result`. -/
theorem final (c : Dev nD) : (dats m 0 c).arrAt 2 cfg0.N = result m c :=
  (dats m 0 c).arrAt_eq_of_cover 2 (result m c) (flushed_eq m c) fun i =>
    ⟨t0_0, flush0_2 t0_0, by
      show i ∈ ((View.whole main_v3).slice (win0_2.rect t0_0)).set
      rw [View.set_slice_whole, Rect.mem_set_unit]
      intro a
      have h0 : (i 0 : Nat) < 1 := (i 0).isLt
      have h1 : (i 1 : Nat) < 16 := (i 1).isLt
      match a with
      | ⟨0, _⟩ =>
        show win0_2.index t0_0 0 * win0_2.size 0 ≤ (i 0 : Nat) ∧ (i 0 : Nat) < win0_2.index t0_0 0 * win0_2.size 0 + win0_2.xsize (grid0.coords t0_0) 0
        rw [show win0_2.index t0_0 0 * win0_2.size 0 = 0 from by decide +kernel, show win0_2.xsize (grid0.coords t0_0) 0 = 1 from by decide +kernel]; omega
      | ⟨1, _⟩ =>
        show win0_2.index t0_0 1 * win0_2.size 1 ≤ (i 1 : Nat) ∧ (i 1 : Nat) < win0_2.index t0_0 1 * win0_2.size 1 + win0_2.xsize (grid0.coords t0_0) 1
        rw [show win0_2.index t0_0 1 * win0_2.size 1 = 0 from by decide +kernel, show win0_2.xsize (grid0.coords t0_0) 1 = 16 from by decide +kernel]; omega⟩

/-! ## The two blocks as entries of the arguments -/

/-- The block of matrix rows at (l, d) is the matrix at (l, d): block (0, 0) starts at the origin. -/
theorem rows_apply (c : Dev nD) (l : Fin 16) (d : Fin 768) :
    rows m c (ix2 l d)
      = (m ((c : Thread nD τ).loc main_arg1) : S768x768.Idx → EReal) (ix2 (⟨l.val, by omega⟩ : Fin 768) d) := by
  show iblk m c 1 t0_0 (ix2 l d) = _
  unfold iblk
  rw [View.read_apply]
  show V m c main_arg1 _ = _
  rw [V_main_arg1]
  congr 1
  funext a
  apply Fin.ext
  match a with
  | ⟨0, _⟩ => show win0_1.index t0_0 0 * 16 + 1 * l.val = l.val; rw [show win0_1.index t0_0 0 = 0 from by decide +kernel]; omega
  | ⟨1, _⟩ => show win0_1.index t0_0 1 * 768 + 1 * d.val = d.val; rw [show win0_1.index t0_0 1 = 0 from by decide +kernel]; omega

/-- The patch block is the whole 1 × 768 array the lines before the launch wrote. -/
theorem patch_apply (c : Dev nD) (d : Fin 768) :
    patch m c (ix2 (0 : Fin 1) d) = (V m c main_v2 : S1x768.Idx → EReal) (ix2 (0 : Fin 1) d) := by
  show iblk m c 0 t0_0 (ix2 (0 : Fin 1) d) = _
  unfold iblk
  rw [View.read_apply]
  show V m c main_v2 _ = _
  congr 1
  funext a
  apply Fin.ext
  match a with
  | ⟨0, _⟩ => show win0_0.index t0_0 0 * 1 + 1 * 0 = 0; rw [show win0_0.index t0_0 0 = 0 from by decide +kernel]
  | ⟨1, _⟩ => show win0_0.index t0_0 1 * 768 + 1 * d.val = d.val; rw [show win0_0.index t0_0 1 = 0 from by decide +kernel]; omega

/-- That array: the corner [0:1, 0:3, 0:16, 0:16] of the images, flattened. -/
theorem V_patch (c : Dev nD) :
    (V m c main_v2 : S1x768.Idx → EReal)
      = shapeCast S1x768 (shapeCast S3x16x16 (extractStridedSlice S1x3x16x16 ![0, 0, 0, 0]
          (m ((c : Thread nD τ).loc main_arg0)) slices_S256x3x224x224_S1x3x16x16_0_0_0_0)
          shapeCasts_S1x3x16x16_S3x16x16) shapeCasts_S3x16x16_S1x768 := by
  show StableHlo.after hostOps0 (fun b => m (c, b)) (Proc.devRef .tc main_v2) = _
  after_results
  rfl

/-- Entry `d` of the patch is the image entry `pix d`: flattening [3, 16, 16] puts (ch, ph, pw) at 256 ch + 16 ph + pw. -/
theorem patch_pix (c : Dev nD) (d : Fin 768) :
    patch m c (ix2 (0 : Fin 1) d) = (m ((c : Thread nD τ).loc main_arg0) : S256x3x224x224.Idx → EReal) (pix d) := by
  have hd : d.val < 768 := d.isLt
  rw [patch_apply, V_patch]
  refine (shapeCast_apply _ shapeCasts_S3x16x16_S1x768 _
    (ix3 (⟨d.val / 256, by omega⟩ : Fin 3) (⟨d.val / 16 % 16, by omega⟩ : Fin 16) (⟨d.val % 16, by omega⟩ : Fin 16)) ?_).trans ?_
  · rw [Shape.rowMajor_val_three, Shape.rowMajor_val_two]
    show (d.val / 256 * 16 + d.val / 16 % 16) * 16 + d.val % 16 = 0 * 768 + d.val
    omega
  refine (shapeCast_apply _ shapeCasts_S1x3x16x16_S3x16x16 _
    (ix4 (⟨0, by omega⟩ : Fin 1) (⟨d.val / 256, by omega⟩ : Fin 3) (⟨d.val / 16 % 16, by omega⟩ : Fin 16) (⟨d.val % 16, by omega⟩ : Fin 16)) ?_).trans ?_
  · rw [Shape.rowMajor_val_four, Shape.rowMajor_val_three]
    show ((0 * 3 + d.val / 256) * 16 + d.val / 16 % 16) * 16 + d.val % 16 = (d.val / 256 * 16 + d.val / 16 % 16) * 16 + d.val % 16
    omega
  exact extractStridedSlice_apply _ _ _ _ (pix d) fun a => by
    match a with
    | ⟨0, _⟩ => rfl
    | ⟨1, _⟩ => exact (Nat.zero_add _).symm
    | ⟨2, _⟩ => exact (Nat.zero_add _).symm
    | ⟨3, _⟩ => exact (Nat.zero_add _).symm

/-- So the ten lanes that count are the ten numbers of the specification. -/
theorem lane_eq (c : Dev nD) :
    lane (patch m c) (rows m c) = logit (m ((c : Thread nD τ).loc main_arg0)) (m ((c : Thread nD τ).loc main_arg1)) := by
  funext k
  unfold lane logit
  exact Finset.sum_congr rfl fun d _ => by rw [patch_pix, rows_apply]

/-! ## The program's result -/

/-- The line after the launch keeps entries 0 … 9 of the 1 × 16 array. -/
abbrev kept (c : Dev nD) : Buf (Elt Ideal) ((c : Thread nD τ).loc main_v4) :=
  extractStridedSlice S1x10 ![0, 0] (result m c) slices_S1x16_S1x10_0_0

theorem tail_eq (c : Dev nD) :
    Pipeline.afterTail₀ cfgs (dats m) 0 (V0 m) [hostOps1] c main_v4 = kept m c := by
  unfold Pipeline.afterTail₀
  show StableHlo.after hostOps1 _ (Proc.devRef .tc main_v4) = _
  after_results
  exact congrArg (fun v => extractStridedSlice S1x10 ![0, 0] v slices_S1x16_S1x10_0_0)
    ((Pipeline.withArrays_arr spec0 launch0.win.arr_inj c (V0 m c) (fun w => (dats m 0 c).arrAt w cfg0.N) 2).trans (final m c))

/-- The run: the result array holds the ten kept entries, the arguments are unchanged. -/
theorem run : θ_run defs (onTc (τ := τ) (main (F := Ideal))) ⟨m, fun _ => 0, ρ⟩ fun r => ∀ c : Dev nD,
      r.2.mem ((c.tc : Thread nD τ).loc main_v4) = kept m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

/-- Entry `k` of the result: the softmax of the ten lanes, shifted by the sixteen-lane maximum. -/
theorem kept_apply (c : Dev nD) (k : Fin 10) :
    kept m c (ix2 (0 : Fin 1) k)
      = sm (lane (patch m c) (rows m c)) (rowmax (patch m c) (rows m c) (ix1 (0 : Fin 1))) k := by
  refine (extractStridedSlice_apply _ _ _ _ (ix2 (0 : Fin 1) (⟨k.val, by omega⟩ : Fin 16)) fun a => by
    match a with
    | ⟨0, _⟩ => rfl
    | ⟨1, _⟩ => exact (Nat.zero_add _).symm).trans ?_
  exact pay_apply _ _ k

/-- With real arguments the result is the softmax of the ten numbers: the kernel's shift, the maximum of ten reals
    and six copies of −10⁹, is a real. -/
theorem kept_eq (c : Dev nD)
    (hX : ∀ i, ∃ r : ℝ, (m ((c : Thread nD τ).loc main_arg0) : S256x3x224x224.Idx → EReal) i = (r : EReal))
    (hW : ∀ i, ∃ r : ℝ, (m ((c : Thread nD τ).loc main_arg1) : S768x768.Idx → EReal) i = (r : EReal)) :
    kept m c = G (m ((c : Thread nD τ).loc main_arg0)) (m ((c : Thread nD τ).loc main_arg1)) := by
  have hp : ∀ i, ∃ r : ℝ, patch m c i = (r : EReal) := fun i => by
    obtain ⟨a, d, rfl⟩ : ∃ (a : Fin 1) (d : Fin 768), i = ix2 a d := ⟨i 0, i 1, eq_ix2 i⟩
    obtain rfl : a = 0 := Subsingleton.elim _ _
    rw [patch_pix]; exact hX _
  have hr : ∀ i, ∃ r : ℝ, rows m c i = (r : EReal) := fun i => by
    obtain ⟨l, d, rfl⟩ : ∃ (l : Fin 16) (d : Fin 768), i = ix2 l d := ⟨i 0, i 1, eq_ix2 i⟩
    rw [rows_apply]; exact hW _
  funext i
  obtain ⟨a, k, rfl⟩ : ∃ (a : Fin 1) (k : Fin 10), i = ix2 a k := ⟨i 0, i 1, eq_ix2 i⟩
  obtain rfl : a = 0 := Subsingleton.elim _ _
  rw [kept_apply, lane_eq]
  exact sm_eq_G _ _ hX hW _ (rowmax_real _ _ hp hr) k

end Cert.KernelIdeal.KValue

end
-- ==== Proof.lean ====
/-
  The certificate: a one-launch kernel against the patch-embedding reference, equal over the extended reals.

  The reference cuts 256 images into patches, multiplies every patch by a 768 × 768 matrix, keeps the first ten
  numbers of the flattened product and returns their softmax. Those ten numbers are the products of patch (0, 0) of
  image 0 with the first ten rows of the matrix, and the kernel computes just those: it cuts that one patch out,
  multiplies it by rows 0 … 15, masks lanes ten to fifteen, takes a sixteen-lane softmax and keeps ten lanes.
  The two shifts differ — the reference subtracts the maximum of the ten numbers, the kernel the maximum of the ten
  numbers and −10⁹ — and a softmax does not depend on a real shift; this is where the precondition (every input
  finite) is used: it makes the ten numbers, and with them both shifts, reals.
  Both results are shown equal to one function `Cert.Softmax.G` of the two argument arrays.
-/
import proofs.«419061_j15470472200194_3_alg».proof.Defs
import proofs.«419061_j15470472200194_3_alg».proof.Proof.Gen.Kernel
import proofs.«419061_j15470472200194_3_alg».proof.Proof.Gen.Kernel.Skeleton
import proofs.«419061_j15470472200194_3_alg».proof.Proof.Gen.Kernel.Launch
import proofs.«419061_j15470472200194_3_alg».proof.Proof.Gen.Kernel.Points
import proofs.«419061_j15470472200194_3_alg».proof.Proof.Gen.Kernel.Frame
import proofs.«419061_j15470472200194_3_alg».proof.Proof.Gen.KernelIdeal
import proofs.«419061_j15470472200194_3_alg».proof.Proof.Gen.KernelIdeal.Skeleton
import proofs.«419061_j15470472200194_3_alg».proof.Proof.Gen.KernelIdeal.Launch
import proofs.«419061_j15470472200194_3_alg».proof.Proof.Gen.KernelIdeal.Points
import proofs.«419061_j15470472200194_3_alg».proof.Proof.Gen.KernelIdeal.Frame
import proofs.«419061_j15470472200194_3_alg».proof.Proof.Gen.ReferenceIdeal
import proofs.«419061_j15470472200194_3_alg».proof.Proof.Gen.Pre_finite_inputs
import proofs.«419061_j15470472200194_3_alg».proof.Proof.Gen.ReferenceIdeal.Run
import proofs.«419061_j15470472200194_3_alg».proof.Proof.Gen.ReferenceIdeal.Read
import proofs.«419061_j15470472200194_3_alg».proof.Proof.Softmax
import proofs.«419061_j15470472200194_3_alg».proof.Proof.Finite
import proofs.«419061_j15470472200194_3_alg».proof.Proof.RefValue
import proofs.«419061_j15470472200194_3_alg».proof.Proof.KernelValue
import Idealize.ShloMosaic.Adequacy
import Idealize.ShloMosaic.Init

noncomputable section

namespace Cert.Proof

open Idealize.ShloMosaic Idealize.SL.Sem

/-- The kernel program as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the two arguments, all finite, both programs end with the softmax of the ten numbers. -/
theorem algebraic : Cert.algebraic_KernelIdeal_ReferenceIdeal := by
  intro m ρ m' ρ' hpre hagree
  refine ⟨fun c => Cert.Softmax.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.KValue.run m ρ)
    obtain ⟨hX, hW⟩ := Cert.Finite.entries_real _ _ (hpre c)
    exact Cert.KernelIdeal.KValue.kept_eq m c hX hW
  · refine (θ_run Cert.ReferenceIdeal.defs _ _).mono (fun _ h c => ⟨(h c).1.trans ?_, (h c).2⟩)
      (Cert.ReferenceIdeal.Value.run (F := Ideal) m' ρ')
    obtain ⟨hX, hW⟩ := Cert.Finite.entries_real _ _ (hpre c)
    rw [(hagree c).1, (hagree c).2, Cert.ReferenceIdeal.Read.val_main_v17_eq]
    exact Cert.ReferenceIdeal.RefValue.result_eq _ _ hX hW

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
